-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S8x256x64x64 : Shape := ⟨4, ![8, 256, 64, 64]⟩
abbrev S8x64x64x256 : Shape := ⟨4, ![8, 64, 64, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  bcast_S_S8x64x64x256 : S_.BroadcastsInDim S8x64x64x256 (![] : Fin 0 → Fin S8x64x64x256.rank)
  reducesTo_S8x64x64x256_S_d0_1_2_3 : S8x64x64x256.ReducesTo [0, 1, 2, 3] S_

variable [Facts]

def fn {F : FTy → Type} [FloatOps F] (main_arg0 : FVec F S2048x256 .f32) (main_arg1 : FVec F S8x256x64x64 .f32) (main_arg2 : FVec F S8x64x64x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S8x64x64x256 .f32 := Host.absf main_arg2
  let main_cst_2 : FVec F S_ .f32 := constant S_ .f32 0x7F800000#32
  let main_v10 : FVec F S8x64x64x256 .f32 := broadcastInDim S8x64x64x256 ![] bcast_S_S8x64x64x256 main_cst_2
  let main_v11 : IVec S8x64x64x256 1 := cmpf .olt main_v9 main_v10
  let main_c_3 : IVec S_ 1 := constantI S_ 1 1#1
  let main_v12 : IVec S_ 1 := (fun x v => Host.reduce IntOp.andi x v reducesTo_S8x64x64x256_S_d0_1_2_3 h_S_) main_v11 main_c_3
  let main_v13 : IVec S_ 1 := andi main_v8 main_v12
  main_v13
-- ==== Kernel.lean ====
abbrev S2048x256 : Shape := ⟨2, ![2048, 256]⟩
abbrev S8x256x64x64 : Shape := ⟨4, ![8, 256, 64, 64]⟩
abbrev S8x64x64x256 : Shape := ⟨4, ![8, 64, 64, 256]⟩
abbrev S8x256x4096 : Shape := ⟨3, ![8, 256, 4096]⟩
abbrev S1x256x1024 : Shape := ⟨3, ![1, 256, 1024]⟩
abbrev S1x256x512 : Shape := ⟨3, ![1, 256, 512]⟩
abbrev S256x512 : Shape := ⟨2, ![256, 512]⟩
abbrev S2048x512 : Shape := ⟨2, ![2048, 512]⟩
abbrev S512 : Shape := ⟨1, ![512]⟩
abbrev S1x512 : Shape := ⟨2, ![1, 512]⟩

abbrev nBuf : Space → Nat
  | .hbm => 7
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S8x256x64x64, .f32⟩
  | .hbm, ⟨2, _⟩ => ⟨S8x64x64x256, .f32⟩
  | .hbm, ⟨3, _⟩ => ⟨S8x256x4096, .f32⟩
  | .hbm, ⟨4, _⟩ => ⟨S2048x256, .bf16⟩
  | .hbm, ⟨5, _⟩ => ⟨S8x256x4096, .f32⟩
  | .hbm, ⟨6, _⟩ => ⟨S8x256x64x64, .f32⟩
  | .local _ .vmem, ⟨0, _⟩ => ⟨S2048x256, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x256x64x64_S8x256x4096 : S8x256x64x64.ShapeCasts S8x256x4096
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256x1024_S1x256x512_0_0_0 : ∀ a, (![0, 0, 0] : Fin 3 → Nat) a + S1x256x512.size a ≤ S1x256x1024.size a
  h_S1x256x512 : 0 < S1x256x512.numel
  shapeCasts_S1x256x512_S256x512 : S1x256x512.ShapeCasts S256x512
  reduces_S2048x512_S512 : S2048x512.Reduces [0] S512
  shapeCasts_S512_S1x512 : S512.ShapeCasts S1x512
  broadcasts_S1x512_S2048x512 : S1x512.Broadcasts S2048x512
  broadcasts_S1x512_S256x512 : S1x512.Broadcasts S256x512
  shapeCasts_S256x512_S1x256x512 : S256x512.ShapeCasts S1x256x512
  inb_S1x256x1024_S1x256x512_0_0_512 : ∀ a, (![0, 0, 512] : Fin 3 → Nat) a + S1x256x512.size a ≤ S1x256x1024.size a
  shapeCasts_S8x256x4096_S8x256x64x64 : S8x256x4096.ShapeCasts S8x256x64x64
  dot_S2048x256_S256x512_S2048x512_1_0_0_1_n_n_wf : DotDims.WF S2048x256 S256x512 S2048x512 [1] [0] [0] [1] [] []
  dot_S2048x256_S2048x512_S256x512_0_0_1_1_n_n_wf : DotDims.WF S2048x256 S2048x512 S256x512 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .bf16 = 32 ∨ (Rect.block (s := S2048x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x256x4096.size a
  hwx0_1 : ∀ i : grid0.Coords, EltTy.bits .f32 = 32 ∨ (Rect.block (s := S8x256x4096) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x4096.size a
  hwx0_2 : ∀ i : grid0.Coords, EltTy.bits .f32 = 32 ∨ (Rect.block (s := S8x256x4096) S1x256x1024.size (cc0_transform_2 i) (hinb0_2 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S2048x512_S256x512_0_0_1_1_n_n : DotDims S2048x256 S2048x512 S256x512 where
  lhsContracting := [0]
  rhsContracting := [0]
  lhsNonContracting := [1]
  rhsNonContracting := [1]
  lhsBatch := []
  rhsBatch := []
  wf := dot_S2048x256_S2048x512_S256x512_0_0_1_1_n_n_wf

abbrev win0_0 : Pipeline.Window sig grid0 :=
  Pipeline.Window.ofSpec (Memref.whole main_v1) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x256 : Shape := ⟨2, ![2048, 256]⟩
abbrev S8x256x64x64 : Shape := ⟨4, ![8, 256, 64, 64]⟩
abbrev S8x64x64x256 : Shape := ⟨4, ![8, 64, 64, 256]⟩
abbrev S32768x256 : Shape := ⟨2, ![32768, 256]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x256x64x64, .f32⟩
  | .hbm, ⟨2, _⟩ => ⟨S8x64x64x256, .f32⟩
  | .hbm, ⟨3, _⟩ => ⟨S8x64x64x256, .f32⟩
  | .hbm, ⟨4, _⟩ => ⟨S32768x256, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S32768x256, .f32⟩
  | .hbm, ⟨21, _⟩ => ⟨S8x64x64x256, .f32⟩
  | .hbm, ⟨22, _⟩ => ⟨S8x256x64x64, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S8x256x64x64_S8x64x64x256_0_2_3_1 : S8x256x64x64.Transposes [0, 2, 3, 1] S8x64x64x256
  shapeCasts_S8x64x64x256_S32768x256 : S8x64x64x256.ShapeCasts S32768x256
  reducesTo_S32768x2048_S32768_d1 : S32768x2048.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  shapeCasts_S32768x256_S8x64x64x256 : S32768x256.ShapeCasts S8x64x64x256
  transposes_S8x64x64x256_S8x256x64x64_0_3_1_2 : S8x64x64x256.Transposes [0, 3, 1, 2] S8x256x64x64
  dot_S32768x256_S2048x256_S32768x2048_1_1_0_0_n_n_wf : DotDims.WF S32768x256 S2048x256 S32768x2048 [1] [1] [0] [0] [] []
  dot_S32768x2048_S2048x256_S32768x256_1_0_0_1_n_n_wf : DotDims.WF S32768x2048 S2048x256 S32768x256 [1] [0] [0] [1] [] []

variable [Facts₀]

def dot_S32768x256_S2048x256_S32768x2048_1_1_0_0_n_n : DotDims S32768x256 S2048x256 S32768x2048 where
  lhsContracting := [1]
  rhsContracting := [1]
  lhsNonContracting := [0]
  rhsNonContracting := [0]
  lhsBatch := []
  rhsBatch := []
  wf := dot_S32768x256_S2048x256_S32768x2048_1_1_0_0_n_n_wf
def dot_S32768x2048_S2048x256_S32768x256_1_0_0_1_n_n : DotDims S32768x2048 S2048x256 S32768x256 where
  lhsContracting := [1]
  rhsContracting := [0]
  lhsNonContracting := [0]
  rhsNonContracting := [1]
  lhsBatch := []
  rhsBatch := []
  wf := dot_S32768x2048_S2048x256_S32768x256_1_0_0_1_n_n_wf

class Facts : Prop extends Facts₀ where

variable [Facts]
-- ==== Proof.Attention.lean ====
/-
  Memory read by attention, as mathematics. A bank of `M` key rows of width `D` (`K mm d`) is queried by one
  column `q : Fin D → EReal`: the score of row `mm` is the inner product `∑ d, K mm d * q d`; the rows are weighted
  by `exp (score − highest score)`, the weights' total is the mass, and coordinate `d` of the read is the
  weighted mean of the keys' column `d`.
  The mean is written in two arrangements. `readLate` sums the unnormalised weights against the keys first and
  divides the sum by the mass once; `readEarly` divides every weight by the mass and then sums. On finite data
  they are one number (AttentionLaw.lean); at an infinity division does not distribute over a sum, so the
  equality is claimed of real data only.
  Over the program's arrays: `keysMat` reads the `[2048, 256]` key array by (row, coordinate); `queryCol` reads
  the `[8, 256, 64, 64]` query array at an image `b` and a pixel `(h, w)` as the column over the 256 channels;
  `lateArr` / `earlyArr` are the whole `[8, 256, 64, 64]` results in either arrangement, and `lateArr3` the first
  with the pixel axes flattened, `[8, 256, 4096]`.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

variable {M D : Nat}

/-- The score of key row `mm` against the query column: their inner product. -/
def score (K : Fin M → Fin D → EReal) (q : Fin D → EReal) (mm : Fin M) : EReal := ∑ d : Fin D, K mm d * q d

/-- The highest of the scores, as the fold of `max` from `⊥` over the rows. -/
def top (s : Fin M → EReal) : EReal := (Finset.univ : Finset (Fin M)).fold max ⊥ s

/-- Row `mm`'s unnormalised weight: `exp` of its score's distance below the highest. -/
def wt (s : Fin M → EReal) (mm : Fin M) : EReal := Ideal.exp (s mm - top s)

/-- The weights' total. -/
def mass (s : Fin M → EReal) : EReal := ∑ mm : Fin M, wt s mm

/-- Coordinate `d` of the read, dividing LAST: the unnormalised weights summed against the keys' column `d`,
    over the mass. -/
def readLate (K : Fin M → Fin D → EReal) (q : Fin D → EReal) (d : Fin D) : EReal :=
  Ideal.div (∑ mm : Fin M, K mm d * wt (score K q) mm) (mass (score K q))

/-- Coordinate `d` of the read, dividing FIRST: each weight over the mass, summed against the keys' column `d`. -/
def readEarly (K : Fin M → Fin D → EReal) (q : Fin D → EReal) (d : Fin D) : EReal :=
  ∑ mm : Fin M, Ideal.div (wt (score K q) mm) (mass (score K q)) * K mm d

/-! ## Over the program's arrays -/

/-- The key array `[2048, 256]` by (row, coordinate). -/
abbrev keysMat (K : (⟨2, ![2048, 256]⟩ : Shape).Idx → EReal) : Fin 2048 → Fin 256 → EReal := fun mm d => K (ix2 mm d)

/-- The query array `[8, 256, 64, 64]` at image `b`, pixel `(h, w)`: the column over the channels. -/
abbrev queryCol (Q : (⟨4, ![8, 256, 64, 64]⟩ : Shape).Idx → EReal) (b : Fin 8) (h w : Fin 64) : Fin 256 → EReal :=
  fun d => Q (ix4 b d h w)

/-- The same column of the query array with its pixel axes flattened, `[8, 256, 4096]`, at pixel number `p`. -/
abbrev queryCol3 (Q : (⟨3, ![8, 256, 4096]⟩ : Shape).Idx → EReal) (b : Fin 8) (p : Fin 4096) : Fin 256 → EReal :=
  fun d => Q (ix3 b d p)

/-- The whole result `[8, 256, 64, 64]`, dividing last: entry `(b, d, h, w)` is coordinate `d` of the read of pixel
    `(h, w)` of image `b`. -/
def lateArr (K : (⟨2, ![2048, 256]⟩ : Shape).Idx → EReal) (Q : (⟨4, ![8, 256, 64, 64]⟩ : Shape).Idx → EReal) :
    (⟨4, ![8, 256, 64, 64]⟩ : Shape).Idx → EReal :=
  fun i => readLate (keysMat K) (queryCol Q ⟨(i 0).val, (i 0).isLt⟩ ⟨(i 2).val, (i 2).isLt⟩ ⟨(i 3).val, (i 3).isLt⟩)
    ⟨(i 1).val, (i 1).isLt⟩

/-- The whole result, dividing first. -/
def earlyArr (K : (⟨2, ![2048, 256]⟩ : Shape).Idx → EReal) (Q : (⟨4, ![8, 256, 64, 64]⟩ : Shape).Idx → EReal) :
    (⟨4, ![8, 256, 64, 64]⟩ : Shape).Idx → EReal :=
  fun i => readEarly (keysMat K) (queryCol Q ⟨(i 0).val, (i 0).isLt⟩ ⟨(i 2).val, (i 2).isLt⟩ ⟨(i 3).val, (i 3).isLt⟩)
    ⟨(i 1).val, (i 1).isLt⟩

/-- The result with the pixel axes flattened, `[8, 256, 4096]`, dividing last, of the query array flattened the
    same way. -/
def lateArr3 (K : (⟨2, ![2048, 256]⟩ : Shape).Idx → EReal) (Q : (⟨3, ![8, 256, 4096]⟩ : Shape).Idx → EReal) :
    (⟨3, ![8, 256, 4096]⟩ : Shape).Idx → EReal :=
  fun i => readLate (keysMat K) (queryCol3 Q ⟨(i 0).val, (i 0).isLt⟩ ⟨(i 2).val, (i 2).isLt⟩) ⟨(i 1).val, (i 1).isLt⟩

theorem lateArr_ix4 (K : (⟨2, ![2048, 256]⟩ : Shape).Idx → EReal) (Q : (⟨4, ![8, 256, 64, 64]⟩ : Shape).Idx → EReal)
    (b : Fin 8) (d : Fin 256) (h w : Fin 64) :
    lateArr K Q (ix4 b d h w) = readLate (keysMat K) (queryCol Q b h w) d := rfl

theorem earlyArr_ix4 (K : (⟨2, ![2048, 256]⟩ : Shape).Idx → EReal) (Q : (⟨4, ![8, 256, 64, 64]⟩ : Shape).Idx → EReal)
    (b : Fin 8) (d : Fin 256) (h w : Fin 64) :
    earlyArr K Q (ix4 b d h w) = readEarly (keysMat K) (queryCol Q b h w) d := rfl

theorem lateArr3_ix3 (K : (⟨2, ![2048, 256]⟩ : Shape).Idx → EReal) (Q : (⟨3, ![8, 256, 4096]⟩ : Shape).Idx → EReal)
    (b : Fin 8) (d : Fin 256) (p : Fin 4096) :
    lateArr3 K Q (ix3 b d p) = readLate (keysMat K) (queryCol3 Q b p) d := rfl

/-! ## The two words the programs fold from -/

/-- The f32 word of `-∞` is the extended reals' bottom: a maximum folded from it is the maximum of the data. -/
theorem ofBits_neg_inf : Ideal.ofBits .f32 0xFF800000#32 = ⊥ := by simp [Ideal.ofBits, Ideal.ieee]

end Cert.Attention

end
-- ==== Proof.AttentionLaw.lean ====
/-
  The law that joins the two arrangements of the read, on real data.

  With real keys and a real query every score is a real number, being a finite sum of products of reals. The
  highest score is then a real as well, provided there is at least one row: a fold of `max` from `⊥` over real
  values is below `⊤` because every value is, and above `⊥` because some value is. So every weight is the
  exponential of a real, a positive real; the mass is a finite sum of positive reals over a nonempty range,
  positive and in particular not zero. Division by a nonzero real `S` is multiplication by the real `1 / S`, so
  both arrangements are coercions of real numbers, and in the reals
    `(∑ k·e) · (1/S) = ∑ (e · (1/S)) · k`
  by distributing the factor over the sum and commuting the products.

  At an infinity the step "division distributes over the sum" is not available, so the law is stated of real
  data only; the array form asks that every entry of the two arrays be a real.
-/
import proofs.«426040_j38079180046960_3_alg».proof.Proof.Attention

noncomputable section

open scoped BigOperators

namespace Cert.Attention

open Idealize.ShloMosaic Idealize.ShloMosaic.ValueIdx

/-- The coercion of the reals into the extended reals commutes with a finite sum. -/
theorem coe_sum_real {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- A score of real keys against a real query is the real inner product. -/
theorem score_coe {M D : Nat} (k : Fin M → Fin D → ℝ) (q : Fin D → ℝ) (mm : Fin M) :
    score (fun mm d' => ((k mm d' : ℝ) : EReal)) (fun d' => ((q d' : ℝ) : EReal)) mm
      = ((∑ d' : Fin D, k mm d' * q d' : ℝ) : EReal) := by
  unfold score
  rw [coe_sum_real]
  exact Finset.sum_congr rfl (fun d' _ => (EReal.coe_mul _ _).symm)

/-- The highest of real scores over a nonempty range of rows is a real: it is below `⊤` since `⊥` and every
    score are, and above `⊥` since the first row's score is. -/
theorem top_coe {M : Nat} (hM : 0 < M) (s : Fin M → ℝ) :
    ∃ t : ℝ, top (fun mm => ((s mm : ℝ) : EReal)) = (t : EReal) := by
  have h1 : top (fun mm => ((s mm : ℝ) : EReal)) < ⊤ := by
    unfold top
    rw [Finset.fold_max_lt]
    exact ⟨bot_lt_top, fun x _ => EReal.coe_lt_top _⟩
  have h2 : ⊥ < top (fun mm => ((s mm : ℝ) : EReal)) := by
    unfold top
    rw [Finset.lt_fold_max]
    exact Or.inr ⟨⟨0, hM⟩, Finset.mem_univ _, EReal.bot_lt_coe _⟩
  exact ⟨_, (EReal.coe_toReal (ne_of_lt h1) (ne_of_gt h2)).symm⟩

/-- On real keys and a real query, with at least one row, dividing last and dividing first give one number. -/
theorem readLate_eq_readEarly {M D : Nat} (hM : 0 < M) (k : Fin M → Fin D → ℝ) (q : Fin D → ℝ) (d : Fin D) :
    readLate (fun mm d' => ((k mm d' : ℝ) : EReal)) (fun d' => ((q d' : ℝ) : EReal)) d
      = readEarly (fun mm d' => ((k mm d' : ℝ) : EReal)) (fun d' => ((q d' : ℝ) : EReal)) d := by
  -- the scores are reals
  obtain ⟨s, hs⟩ : ∃ s : Fin M → ℝ,
      score (fun mm d' => ((k mm d' : ℝ) : EReal)) (fun d' => ((q d' : ℝ) : EReal))
        = fun mm => ((s mm : ℝ) : EReal) := ⟨_, funext (score_coe k q)⟩
  -- their highest is a real
  obtain ⟨t, ht⟩ := top_coe hM s
  -- each weight is the exponential of a real
  have hwt : ∀ mm, wt (fun mm => ((s mm : ℝ) : EReal)) mm = ((Real.exp (s mm - t) : ℝ) : EReal) := by
    intro mm
    unfold wt
    rw [ht, ← EReal.coe_sub, Ideal.exp_coe]
  -- the mass is the real sum of the exponentials, and that sum is positive
  have hmass : mass (fun mm => ((s mm : ℝ) : EReal))
      = ((∑ mm : Fin M, Real.exp (s mm - t) : ℝ) : EReal) := by
    unfold mass
    rw [coe_sum_real]
    exact Finset.sum_congr rfl (fun mm _ => hwt mm)
  have hS : (∑ mm : Fin M, Real.exp (s mm - t)) ≠ 0 := by
    have hpos : 0 < ∑ mm : Fin M, Real.exp (s mm - t) :=
      Finset.sum_pos (fun mm _ => Real.exp_pos _) ⟨⟨0, hM⟩, Finset.mem_univ _⟩
    exact ne_of_gt hpos
  -- both arrangements as coercions of real numbers
  have hL : readLate (fun mm d' => ((k mm d' : ℝ) : EReal)) (fun d' => ((q d' : ℝ) : EReal)) d
      = (((∑ mm : Fin M, k mm d * Real.exp (s mm - t)) * (1 / ∑ mm : Fin M, Real.exp (s mm - t)) : ℝ) : EReal) := by
    unfold readLate
    rw [hs, hmass, Ideal.div_coe hS, EReal.coe_mul,
      coe_sum_real Finset.univ (fun mm => k mm d * Real.exp (s mm - t))]
    congr 1
    refine Finset.sum_congr rfl (fun mm _ => ?_)
    rw [hwt mm, EReal.coe_mul]
  have hE : readEarly (fun mm d' => ((k mm d' : ℝ) : EReal)) (fun d' => ((q d' : ℝ) : EReal)) d
      = ((∑ mm : Fin M, (Real.exp (s mm - t) * (1 / ∑ mm : Fin M, Real.exp (s mm - t))) * k mm d : ℝ) : EReal) := by
    unfold readEarly
    rw [hs, hmass, coe_sum_real Finset.univ
      (fun mm => (Real.exp (s mm - t) * (1 / ∑ mm : Fin M, Real.exp (s mm - t))) * k mm d)]
    refine Finset.sum_congr rfl (fun mm _ => ?_)
    rw [hwt mm, Ideal.div_coe hS, EReal.coe_mul, EReal.coe_mul]
  rw [hL, hE]
  congr 1
  -- in the reals: distribute the factor over the sum, then commute the products
  rw [Finset.sum_mul]
  exact Finset.sum_congr rfl (fun mm _ => by ring)

/-- The array form: on a key array and a query array all of whose entries are reals, the whole result dividing
    last is the whole result dividing first. There are 2048 rows, so the range of rows is not empty. -/
theorem lateArr_eq_earlyArr (K : (⟨2, ![2048, 256]⟩ : Shape).Idx → EReal) (Q : (⟨4, ![8, 256, 64, 64]⟩ : Shape).Idx → EReal)
    (hK : ∀ i, ∃ r : ℝ, K i = (r : EReal)) (hQ : ∀ i, ∃ r : ℝ, Q i = (r : EReal)) : lateArr K Q = earlyArr K Q := by
  choose k hk using hK
  choose q hq using hQ
  have hKm : keysMat K = fun mm d' => ((k (ix2 mm d') : ℝ) : EReal) := by
    funext mm d'
    exact hk _
  have hQc : ∀ (b : Fin 8) (h w : Fin 64),
      queryCol Q b h w = fun d' => ((q (ix4 b d' h w) : ℝ) : EReal) := by
    intro b h w
    funext d'
    exact hq _
  funext i
  unfold lateArr earlyArr
  rw [hKm, hQc]
  exact readLate_eq_readEarly (by norm_num) _ _ _

end Cert.Attention

end
-- ==== Proof.FiniteInputs.lean ====
/-
  The precondition gives real data.

  The precondition is the conjunction of three statements, one per input array: every entry `x` of the array has
  `|x| < +∞`, where `|x|` is `max x (-x)` and `+∞` is the extended reals' top. Each statement is a conjunction
  over all entries of the array (an `and` folded from 1 over every index into a single answer), so if the whole
  answer is 1 then each of the three is 1, and then each entry's comparison is 1.

  An extended real whose absolute value is strictly below `⊤` is a real: it is not `⊤` (then `max ⊤ ⊥ = ⊤`), and
  it is not `⊥` (then `max ⊥ ⊤ = ⊤` again), and the only other extended reals are the coercions of reals.
-/
import proofs.«426040_j38079180046960_3_alg».proof.Proof.Gen.Pre_finite_inputs
import Idealize.ShloMosaic.Lib.ReduceAll
import Idealize.ShloMosaic.Lib.ValueIdx

noncomputable section

namespace Cert.FiniteInputs

open Idealize.ShloMosaic Idealize.ShloMosaic.ValueIdx

/-- The shape with no axes has exactly one index. -/
instance : Subsingleton Cert.Pre_finite_inputs.S_.Idx := ⟨fun a b => funext fun d => d.elim0⟩

/-- The f32 word of `+∞` is the extended reals' top. -/
theorem ofBits_pos_inf : Ideal.ofBits .f32 0x7F800000#32 = ⊤ := by simp [Ideal.ofBits, Ideal.ieee]

/-- A word made from a truth value is 1 exactly when the truth value is true. -/
theorem ofBool_eq_one {b : Bool} : BitVec.ofBool b = 1#1 ↔ b = true := by cases b <;> decide

/-- An extended real whose absolute value compares strictly below `+∞` is a real. -/
theorem real_of_abs_lt (x : EReal)
    (h : Ideal.cmp .olt (max x (-x)) (Ideal.ofBits .f32 0x7F800000#32) = 1#1) : ∃ r : ℝ, x = (r : EReal) := by
  rw [ofBits_pos_inf] at h
  have hlt : max x (-x) < ⊤ := by
    have hb := ofBool_eq_one.1 h
    exact of_decide_eq_true hb
  induction x using EReal.rec with
  | bot => simp at hlt
  | coe r => exact ⟨r, rfl⟩
  | top => simp at hlt

/-- If the precondition answers 1 on the three inputs, the first two inputs (the keys and the query) have
    only real entries. -/
theorem real_of_pre (x0 : FVec Ideal Cert.Pre_finite_inputs.S2048x256 .f32)
    (x1 : FVec Ideal Cert.Pre_finite_inputs.S8x256x64x64 .f32)
    (x2 : FVec Ideal Cert.Pre_finite_inputs.S8x64x64x256 .f32)
    (h : Cert.Pre_finite_inputs.fn (F := Ideal) x0 x1 x2 = fun _ => 1#1) :
    (∀ i, ∃ r : ℝ, x0 i = (r : EReal)) ∧ (∀ i, ∃ r : ℝ, x1 i = (r : EReal)) := by
  -- the one answer of the precondition is 1
  have h0 := congrFun h ix0
  dsimp only [Cert.Pre_finite_inputs.fn] at h0
  -- it is a conjunction of three: split it
  obtain ⟨h01, _⟩ := IntOp.andi_eq_one.1 h0
  obtain ⟨ha, hb⟩ := IntOp.andi_eq_one.1 h01
  refine ⟨fun i => ?_, fun i => ?_⟩
  · -- each conjunct is a conjunction over all entries: read the entry's comparison
    have e := Host.reduce_andi_all _ _ _ _ ix0 ha i
    exact real_of_abs_lt (x0 i) e
  · have e := Host.reduce_andi_all _ _ _ _ ix0 hb i
    exact real_of_abs_lt (x1 i) e

end Cert.FiniteInputs

end
-- ==== Proof.ReferenceRead.lean ====
/-
  The reference program, read one entry at a time. It moves the query's channel axis last and flattens images and
  pixels into 32768 rows (row number (b·64 + h)·64 + w for pixel (h, w) of image b); multiplies every row against
  the 2048 keys; takes each row's highest score, the exponentials of the scores' distances below it, and their
  total; divides every exponential by the total; multiplies the quotients against the keys; and undoes the
  flattening and the move of the channel axis. Stage by stage these are the score, the highest score, the weight,
  the mass and the read in the arrangement that divides before it sums, so entry (b, d, h, w) of the result is
  coordinate d of that read for pixel (h, w) of image b.
-/
import proofs.«426040_j38079180046960_3_alg».proof.Proof.Gen.ReferenceIdeal.Read
import proofs.«426040_j38079180046960_3_alg».proof.Proof.Attention
import Idealize.ShloMosaic.PureOps.Reduce

noncomputable section

open scoped BigOperators

namespace Cert.ReferenceRead

open Cert.ReferenceIdeal Cert.ReferenceIdeal.Gen Cert.ReferenceIdeal.Read Cert.Attention
open Idealize.ShloMosaic Idealize.ShloMosaic.ValueIdx

/-- The flattened row of pixel (h, w) of image b. -/
abbrev row (b : Fin 8) (h w : Fin 64) : Fin 32768 :=
  ⟨(b.val * 64 + h.val) * 64 + w.val, by have := b.isLt; have := h.isLt; have := w.isLt; omega⟩

variable (K : (⟨S2048x256, .f32⟩ : BufTy).Contents (Elt Ideal)) (Q : (⟨S8x256x64x64, .f32⟩ : BufTy).Contents (Elt Ideal))

/-- Row (b, h, w) of the flattened, channel-last query holds the query's column at that pixel. -/
theorem v1_at (b : Fin 8) (h w : Fin 64) (d : Fin 256) :
    val_main_v1 (F := Ideal) Q (ix2 (row b h w) d) = Q (ix4 b d h w) := by
  rw [val_main_v1_apply, val_main_v0_apply]
  refine congrArg Q (funext fun a => Fin.ext ?_)
  have hb := b.isLt; have hh := h.isLt; have hw := w.isLt; have hd := d.isLt
  match a with
  | ⟨0, _⟩ => show (((b.val * 64 + h.val) * 64 + w.val) * 256 + d.val) / 1048576 = b.val; omega
  | ⟨1, _⟩ => show (((b.val * 64 + h.val) * 64 + w.val) * 256 + d.val) % 256 = d.val; omega
  | ⟨2, _⟩ => show (((b.val * 64 + h.val) * 64 + w.val) * 256 + d.val) / 16384 % 64 = h.val; omega
  | ⟨3, _⟩ => show (((b.val * 64 + h.val) * 64 + w.val) * 256 + d.val) / 256 % 64 = w.val; omega

/-- The product against the keys is the score: the same inner product with its factors in the other order. -/
theorem v2_at (b : Fin 8) (h w : Fin 64) (mm : Fin 2048) :
    val_main_v2 (F := Ideal) K Q (ix2 (row b h w) mm) = score (keysMat K) (queryCol Q b h w) mm := by
  rw [val_main_v2_apply]
  unfold score
  refine Finset.sum_congr rfl fun k _ => ?_
  have el : lidx_main_v2 (ix2 (row b h w) mm) k = ix2 (row b h w) k :=
    funext fun a => by match a with | ⟨0, _⟩ => rfl | ⟨1, _⟩ => rfl
  have er : ridx_main_v2 (ix2 (row b h w) mm) k = ix2 mm k :=
    funext fun a => by match a with | ⟨0, _⟩ => rfl | ⟨1, _⟩ => rfl
  rw [el, er, v1_at, mul_comm]

/-- The keys' axis of the score array is the one the two row reductions fold away. -/
theorem reducesKeys : S32768x2048.Reduces [1] S32768 := by decide

/-- A row's maximum, folded from the word of -∞, is the highest of its scores. -/
theorem v3_at (b : Fin 8) (h w : Fin 64) :
    val_main_v3 (F := Ideal) K Q (ix1 (row b h w)) = top (score (keysMat K) (queryCol Q b h w)) := by
  unfold val_main_v3
  rw [Host.reduce_eq_fold_single FloatOps.maximumf _ _ reducesTo_S32768x2048_S32768_d1 reducesKeys h_S_]
  have hinit : val_main_cst (F := Ideal) (Shape.Idx.first h_S_) = (⊥ : EReal) := by
    rw [val_main_cst_apply]; exact ofBits_neg_inf
  have hx : (val_main_v2 (F := Ideal) K Q ∘ reducesKeys.lift (ix1 (row b h w)))
      = score (keysMat K) (queryCol Q b h w) := funext fun k => by
    show val_main_v2 (F := Ideal) K Q (reducesKeys.lift (ix1 (row b h w)) k) = _
    rw [← v2_at K Q b h w k]
    exact congrArg _ (funext fun a => Fin.ext (by match a with | ⟨0, _⟩ => rfl | ⟨1, _⟩ => rfl))
  rw [hinit, hx]
  rfl

/-- Taking the maximum with -∞ once more changes nothing. -/
theorem v5_at (b : Fin 8) (h w : Fin 64) :
    val_main_v5 (F := Ideal) K Q (ix1 (row b h w)) = top (score (keysMat K) (queryCol Q b h w)) := by
  rw [val_main_v5_apply, val_main_v4_apply, val_main_cst_0_apply, v3_at]
  show max (Ideal.ofBits .f32 0xFF800000#32) _ = _
  rw [ofBits_neg_inf, max_bot_left]

/-- The highest score, repeated along the row. -/
theorem v7_at (b : Fin 8) (h w : Fin 64) (mm : Fin 2048) :
    val_main_v7 (F := Ideal) K Q (ix2 (row b h w) mm) = top (score (keysMat K) (queryCol Q b h w)) := by
  rw [val_main_v7_apply, val_main_v6_apply]
  have e : idx_main_v6 (idx_main_v7 (ix2 (row b h w) mm)) = ix1 (row b h w) :=
    funext fun a => by match a with | ⟨0, _⟩ => rfl
  rw [e, v5_at]

/-- The exponential of a score's distance below the highest is its weight. -/
theorem v9_at (b : Fin 8) (h w : Fin 64) (mm : Fin 2048) :
    val_main_v9 (F := Ideal) K Q (ix2 (row b h w) mm) = wt (score (keysMat K) (queryCol Q b h w)) mm := by
  rw [val_main_v9_apply, val_main_v8_apply, v2_at, v7_at]
  rfl

/-- The row sum of the weights, started from the word of zero, is the mass. -/
theorem v10_at (b : Fin 8) (h w : Fin 64) :
    val_main_v10 (F := Ideal) K Q (ix1 (row b h w)) = mass (score (keysMat K) (queryCol Q b h w)) := by
  rw [val_main_v10_apply, val_main_cst_1_apply]
  show Ideal.ofBits .f32 0x00000000#32 + _ = _
  rw [Ideal.ofBits_zero_f32, zero_add]
  unfold mass
  refine Finset.sum_congr rfl fun k _ => ?_
  have e : idx_main_v10 (ix1 (row b h w)) k = ix2 (row b h w) k :=
    funext fun a => by match a with | ⟨0, _⟩ => rfl | ⟨1, _⟩ => rfl
  rw [e, v9_at]

/-- The mass, repeated along the row. -/
theorem v12_at (b : Fin 8) (h w : Fin 64) (mm : Fin 2048) :
    val_main_v12 (F := Ideal) K Q (ix2 (row b h w) mm) = mass (score (keysMat K) (queryCol Q b h w)) := by
  rw [val_main_v12_apply, val_main_v11_apply]
  have e : idx_main_v11 (idx_main_v12 (ix2 (row b h w) mm)) = ix1 (row b h w) :=
    funext fun a => by match a with | ⟨0, _⟩ => rfl
  rw [e, v10_at]

/-- Each weight over the mass. -/
theorem v13_at (b : Fin 8) (h w : Fin 64) (mm : Fin 2048) :
    val_main_v13 (F := Ideal) K Q (ix2 (row b h w) mm)
      = Ideal.div (wt (score (keysMat K) (queryCol Q b h w)) mm) (mass (score (keysMat K) (queryCol Q b h w))) := by
  rw [val_main_v13_apply, v9_at, v12_at]
  rfl

/-- The quotients summed against the keys' column d: the read that divides first. -/
theorem v14_at (b : Fin 8) (h w : Fin 64) (d : Fin 256) :
    val_main_v14 (F := Ideal) K Q (ix2 (row b h w) d) = readEarly (keysMat K) (queryCol Q b h w) d := by
  rw [val_main_v14_apply]
  unfold readEarly
  refine Finset.sum_congr rfl fun k _ => ?_
  have el : lidx_main_v14 (ix2 (row b h w) d) k = ix2 (row b h w) k :=
    funext fun a => by match a with | ⟨0, _⟩ => rfl | ⟨1, _⟩ => rfl
  have er : ridx_main_v14 (ix2 (row b h w) d) k = ix2 k d :=
    funext fun a => by match a with | ⟨0, _⟩ => rfl | ⟨1, _⟩ => rfl
  rw [el, er, v13_at]

/-- Entry (b, d, h, w) of the result sits at row (b, h, w), column d of the flat product. -/
theorem out_index (b : Fin 8) (d : Fin 256) (h w : Fin 64) :
    idx_main_v15 (idx_main_v16 (ix4 b d h w)) = ix2 (row b h w) d := by
  refine funext fun a => Fin.ext ?_
  have hb := b.isLt; have hh := h.isLt; have hw := w.isLt; have hd := d.isLt
  match a with
  | ⟨0, _⟩ => show (((b.val * 64 + h.val) * 64 + w.val) * 256 + d.val) / 256 = (b.val * 64 + h.val) * 64 + w.val; omega
  | ⟨1, _⟩ => show (((b.val * 64 + h.val) * 64 + w.val) * 256 + d.val) % 256 = d.val; omega

/-- The reference's result is the attention read, dividing first, at every entry. -/
theorem reference_eq_earlyArr (K : (⟨Cert.ReferenceIdeal.S2048x256, .f32⟩ : BufTy).Contents (Elt Ideal))
    (Q : (⟨Cert.ReferenceIdeal.S8x256x64x64, .f32⟩ : BufTy).Contents (Elt Ideal)) :
    Cert.ReferenceIdeal.Read.val_main_v16 (F := Ideal) K Q = Cert.Attention.earlyArr K Q := by
  funext i
  obtain ⟨b, d, h, w, rfl⟩ : ∃ (b : Fin 8) (d : Fin 256) (h w : Fin 64), i = ix4 b d h w :=
    ⟨_, _, _, _, eq_ix4 i⟩
  rw [earlyArr_ix4, val_main_v16_apply, val_main_v15_apply, out_index, v14_at]

end Cert.ReferenceRead

end
-- ==== Proof.KernelRead.lean ====
/-
  One grid step of the kernel, read entry by entry at the ideal values.
  The body holds the whole key bank `A` (`[2048, 256]`) and one tile of the query with the pixels on the last axis.
  For a half tile `B` (`[1, 256, 512]`, one query column per lane `c`) it forms the score matrix
  `S[mm, c] = ∑ k, A[mm, k] * B[0, k, c]` (a product contracting the channels), takes each column's highest score,
  weights `E[mm, c] = exp (S[mm, c] − highest of column c)`, the column's mass `∑ mm, E[mm, c]`, the second
  product `∑ mm, A[mm, d] * E[mm, c]` (contracting the MEMORY axis of both operands, so the keys are used as they
  lie), and divides by the mass: entry `(d, c)` is `Attention.readLate` of the keys and of lane `c`'s column.
  Changes of float format are the identity at the ideal values, so the narrowed operands of the two products are
  the operands themselves.
-/
import proofs.«426040_j38079180046960_3_alg».proof.Proof.Gen.KernelIdeal.Skeleton
import proofs.«426040_j38079180046960_3_alg».proof.Proof.Attention
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelRead

open Idealize.ShloMosaic Idealize.ShloMosaic.ValueIdx Cert.KernelIdeal Cert.KernelIdeal.Gen Cert.Attention

/-! ## The two products' operand indices, axis by axis -/

/-- The score product contracts the keys' channel axis: on the keys' row axis the operand index is the output's row. -/
theorem scoreDot_lhs_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
/-- On the keys' channel axis it is the contraction's coordinate. -/
theorem scoreDot_lhs_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
/-- On the query tile's channel axis it is the contraction's coordinate. -/
theorem scoreDot_rhs_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
/-- On the query tile's lane axis it is the output's lane. -/
theorem scoreDot_rhs_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The read product contracts the MEMORY axis of both operands: on the keys' row axis the operand index is the
    contraction's coordinate. -/
theorem readDot_lhs_0 (i : S256x512.Idx) (q : dot_S2048x256_S2048x512_S256x512_0_0_1_1_n_n.contr.Idx) :
    (dot_S2048x256_S2048x512_S256x512_0_0_1_1_n_n.lhsIdx i q 0).val = (q ⟨0, by decide⟩).val :=
  dot_S2048x256_S2048x512_S256x512_0_0_1_1_n_n.lhsIdx_val_of_single rfl i q
/-- On the keys' channel axis it is the output's row. -/
theorem readDot_lhs_1 (i : S256x512.Idx) (q : dot_S2048x256_S2048x512_S256x512_0_0_1_1_n_n.contr.Idx) :
    (dot_S2048x256_S2048x512_S256x512_0_0_1_1_n_n.lhsIdx i q 1).val = (i 0).val := by
  unfold DotDims.lhsIdx
  rw [dif_neg (show ¬(1 : Fin S2048x256.rank) ∈ dot_S2048x256_S2048x512_S256x512_0_0_1_1_n_n.lhsBatch by decide), dif_pos (show (1 : Fin S2048x256.rank) ∈ dot_S2048x256_S2048x512_S256x512_0_0_1_1_n_n.lhsNonContracting by decide)]
  rfl
/-- On the weights' memory axis it is the contraction's coordinate. -/
theorem readDot_rhs_0 (i : S256x512.Idx) (q : dot_S2048x256_S2048x512_S256x512_0_0_1_1_n_n.contr.Idx) :
    (dot_S2048x256_S2048x512_S256x512_0_0_1_1_n_n.rhsIdx i q 0).val = (q ⟨0, by decide⟩).val :=
  dot_S2048x256_S2048x512_S256x512_0_0_1_1_n_n.rhsIdx_val_of_single rfl i q
/-- On the weights' lane axis it is the output's lane. -/
theorem readDot_rhs_1 (i : S256x512.Idx) (q : dot_S2048x256_S2048x512_S256x512_0_0_1_1_n_n.contr.Idx) :
    (dot_S2048x256_S2048x512_S256x512_0_0_1_1_n_n.rhsIdx i q 1).val = (i 1).val := by
  unfold DotDims.rhsIdx
  rw [dif_neg (show ¬(1 : Fin S2048x512.rank) ∈ dot_S2048x256_S2048x512_S256x512_0_0_1_1_n_n.rhsBatch by decide), dif_pos (show (1 : Fin S2048x512.rank) ∈ dot_S2048x256_S2048x512_S256x512_0_0_1_1_n_n.rhsNonContracting by decide)]
  rfl

/-! ## The two products at an entry -/

/-- The score product into a zero accumulator, at row `mm` and lane `c`: the sum over the channels. -/
theorem scoreDot_apply (A : FVec Ideal S2048x256 .bf16) (B : FVec Ideal S256x512 .bf16) (mm : Fin 2048) (c : Fin 512) :
    matmul dot_S2048x256_S256x512_S2048x512_1_0_0_1_n_n none A B (constant S2048x512 .f32 0x00000000#32) (ix2 mm c)
      = ∑ k : Fin 256, A (ix2 mm k) * B (ix2 k c) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 mm c) ((contrEquiv1 dot_S2048x256_S256x512_S2048x512_1_0_0_1_n_n 256 rfl rfl).symm k) = ix2 mm k := funext fun a => Fin.ext (by
    match a with
    | ⟨0, _⟩ => exact scoreDot_lhs_0 _ _
    | ⟨1, _⟩ => exact (scoreDot_lhs_1 _ _).trans hk)
  have er : dot_S2048x256_S256x512_S2048x512_1_0_0_1_n_n.rhsIdx (ix2 mm c) ((contrEquiv1 dot_S2048x256_S256x512_S2048x512_1_0_0_1_n_n 256 rfl rfl).symm k) = ix2 k c := funext fun a => Fin.ext (by
    match a with
    | ⟨0, _⟩ => exact (scoreDot_rhs_0 _ _).trans hk
    | ⟨1, _⟩ => exact scoreDot_rhs_1 _ _)
  rw [el, er]

/-- The read product into a zero accumulator, at channel `d` and lane `c`: the sum over the memory rows. -/
theorem readDot_apply (A : FVec Ideal S2048x256 .bf16) (E : FVec Ideal S2048x512 .bf16) (d : Fin 256) (c : Fin 512) :
    matmul dot_S2048x256_S2048x512_S256x512_0_0_1_1_n_n none A E (constant S256x512 .f32 0x00000000#32) (ix2 d c)
      = ∑ mm : Fin 2048, A (ix2 mm d) * E (ix2 mm c) := by
  simp only [matmul]
  rw [Ideal.matmul_constant_zero_apply, ← Equiv.sum_comp (contrEquiv1 dot_S2048x256_S2048x512_S256x512_0_0_1_1_n_n 2048 rfl rfl).symm]
  refine Finset.sum_congr rfl fun k _ => ?_
  have hk := contrEquiv1_symm_val dot_S2048x256_S2048x512_S256x512_0_0_1_1_n_n 2048 rfl rfl k
  have el : dot_S2048x256_S2048x512_S256x512_0_0_1_1_n_n.lhsIdx (ix2 d c) ((contrEquiv1 dot_S2048x256_S2048x512_S256x512_0_0_1_1_n_n 2048 rfl rfl).symm k) = ix2 k d := funext fun a => Fin.ext (by
    match a with
    | ⟨0, _⟩ => exact (readDot_lhs_0 _ _).trans hk
    | ⟨1, _⟩ => exact readDot_lhs_1 _ _)
  have er : dot_S2048x256_S2048x512_S256x512_0_0_1_1_n_n.rhsIdx (ix2 d c) ((contrEquiv1 dot_S2048x256_S2048x512_S256x512_0_0_1_1_n_n 2048 rfl rfl).symm k) = ix2 k c := funext fun a => Fin.ext (by
    match a with
    | ⟨0, _⟩ => exact (readDot_rhs_0 _ _).trans hk
    | ⟨1, _⟩ => exact readDot_rhs_1 _ _)
  rw [el, er]

/-! ## The two reductions over the memory axis, at a lane -/

/-- A column's maximum from the `-∞` word is `Attention.top` of the column. -/
theorem colMax_apply (X : FVec Ideal S2048x512 .f32) (h : S2048x512.Reduces [0] S512) (hφ : FKind.Formats .f32)
    (hacc : (0xFF800000#32 : BitVec 32) = 0xFF800000#32) (c : Fin 512) :
    multiReduction .maximumf [0] S512 X 0xFF800000#32 h hφ hacc (ix1 c) = top (fun mm : Fin 2048 => X (ix2 mm c)) := by
  refine (Ideal.multiReduction_maximumf_single X 0xFF800000#32 h hφ hacc (ix1 c)).trans ?_
  show (Finset.univ : Finset (Fin 2048)).fold max (Ideal.ofBits .f32 0xFF800000#32) (X ∘ h.lift (ix1 c)) = _
  rw [ofBits_neg_inf]
  exact congrArg (fun f : Fin 2048 → EReal => (Finset.univ : Finset (Fin 2048)).fold max ⊥ f)
    (funext fun mm => congrArg X (funext fun a => Fin.ext (by match a with | ⟨0, _⟩ => rfl | ⟨1, _⟩ => rfl)))

/-- A column's sum from the zero word is the sum over the memory rows. -/
theorem colSum_apply (X : FVec Ideal S2048x512 .f32) (h : S2048x512.Reduces [0] S512) (hφ : FKind.Formats .f32)
    (hacc : (0x00000000#32 : BitVec 32) = 0x00000000#32) (c : Fin 512) :
    multiReduction .add [0] S512 X 0x00000000#32 h hφ hacc (ix1 c) = ∑ mm : Fin 2048, X (ix2 mm c) := by
  refine (Ideal.multiReduction_add_single X 0x00000000#32 h hφ hacc (ix1 c)).trans ?_
  show ∑ mm : Fin 2048, X (h.lift (ix1 c) mm) = _
  exact Finset.sum_congr rfl fun mm _ => congrArg X (funext fun a => Fin.ext (by match a with | ⟨0, _⟩ => rfl | ⟨1, _⟩ => rfl))

/-- The exponential of a vector at an entry is the exponential of the entry. -/
theorem exp_apply {s : Shape} {φ : FTy} (x : FVec Ideal s φ) (i : s.Idx) : exp x i = Ideal.exp (x i) := rfl

/-! ## The body's arithmetic at an entry -/

/-- Entry `(d, c)` of the half tile's result: coordinate `d` of the read of lane `c`'s query column against the
    keys, dividing last. -/
theorem pay4_apply (v0 : FVec Ideal S2048x256 .bf16) (v20 : FVec Ideal S1x256x512 .f32) (d : Fin 256) (c : Fin 512) :
    k0_pay4 (F := Ideal) v0 v20 (ix2 d c)
      = readLate (fun mm k => v0 (ix2 mm k)) (fun k => v20 (ix3 (0 : Fin 1) k c)) d := by
  unfold k0_pay4 k0_pay2
  dsimp only
  rw [divf_apply, readDot_apply, broadcastTo_1b_ab_apply, shapeCast_a_1a_apply, colSum_apply]
  simp only [truncf_apply, exp_apply, subf_apply, broadcastTo_1b_ab_apply, shapeCast_a_1a_apply, scoreDot_apply,
    shapeCast_1ab_ab_apply, shapeCast_self]
  rw [colMax_apply]
  simp only [scoreDot_apply, truncf_apply, shapeCast_1ab_ab_apply]
  rfl

/-- The first half's store is the same arithmetic with a leading unit axis added. -/
theorem pay3_eq (v0 : Vec Ideal S2048x256 .bf16) (v2 : Vec Ideal S1x256x512 .f32) :
    k0_pay3 (F := Ideal) v0 v2 = k0_pay1 (k0_pay4 v0 v2) := rfl

/-- The stored half tile `[1, 256, 512]` at `(u, d, c)`. -/
theorem pay1_apply (v34 : FVec Ideal S256x512 .f32) (u : Fin 1) (d : Fin 256) (c : Fin 512) :
    k0_pay1 (F := Ideal) v34 (ix3 u d c) = v34 (ix2 d c) := by
  unfold k0_pay1
  exact shapeCast_ab_1ab_apply v34 _ u d c

end Cert.KernelRead

end
-- ==== Proof.KernelArray.lean ====
/-
  From one grid step to the whole result.
  The grid has one point per image `b` and per run of 1024 consecutive pixels; at a point the body is given the whole
  key bank and the tile `[1, 256, 1024]` of the flattened query (image `b`, all channels, that run of pixels), and
  leaves a tile of the same shape: its two stores fill lanes 0–511 and 512–1023 with the same arithmetic, so entry
  `(u, d, p)` of the tile is coordinate `d` of the read of lane `p`'s query column (`tileFn`). A tile's entry
  `(u, d, p)` at point (b, j) is entry `(b, d, j·1024 + p)` of the arrays, so what every point writes back is its
  tile of ONE whole-array function, `Attention.lateArr3` of the keys and the flattened query; the tiles cover the
  array, so the array ends at that function. Before the region the keys change float format only (the identity
  here) and the query's two pixel axes are flattened; after it the result's pixel axis is split again. Pixel (h, w)
  is pixel number h·64 + w on both sides, so the program's result is `Attention.lateArr` of the arguments.
-/
import proofs.«426040_j38079180046960_3_alg».proof.Proof.Gen.KernelIdeal.Frame
import proofs.«426040_j38079180046960_3_alg».proof.Proof.KernelRead
import proofs.«426040_j38079180046960_3_alg».proof.Proof.Attention
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelArray

open Idealize.ShloMosaic Idealize.ShloMosaic.TcCoe Idealize.ShloMosaic.ValueIdx Idealize.SL.Sem
open Idealize.ShloMosaic.Pipeline (Dat)
open Cert.KernelIdeal Cert.KernelIdeal.Gen Cert.Attention Cert.KernelRead

/-! ## One tile -/

/-- The read depends on the keys, the column and the coordinate only through their values. -/
theorem readLate_congr {M D : Nat} {K K' : Fin M → Fin D → EReal} {q q' : Fin D → EReal} {d d' : Fin D}
    (hK : ∀ mm k, K mm k = K' mm k) (hq : ∀ k, q k = q' k) (hd : d = d') : readLate K q d = readLate K' q' d' := by
  obtain rfl : K = K' := funext fun mm => funext (hK mm)
  obtain rfl : q = q' := funext hq
  subst hd
  rfl

/-- What a grid step leaves in its output tile, of the key bank and the query tile it was given: entry `(u, d, p)` is
    coordinate `d` of the read of lane `p`'s column. -/
def tileFn (x0 : Vec Ideal S2048x256 .bf16) (x1 : Vec Ideal S1x256x1024 .f32) : S1x256x1024.Idx → EReal :=
  fun y => readLate (fun mm k => x0 (ix2 mm k)) (fun k => x1 (ix3 (0 : Fin 1) k ⟨(y 2).val, (y 2).isLt⟩)) ⟨(y 1).val, (y 1).isLt⟩

theorem zero2 : (![0, 0] : Fin 2 → Nat) = fun _ => 0 := funext fun a => by fin_cases a <;> rfl

/-- The body's two stores, lanes 512–1023 and lanes 0–511, are the two halves of `tileFn`. -/
theorem out0_2_eq (x0 : Vec Ideal S2048x256 .bf16) (x1 : Vec Ideal S1x256x1024 .f32) :
    out0_2 (F := Ideal) x0 x1 = tileFn x0 x1 := by
  funext y
  unfold out0_2
  refine View.canon_apply_of_pieces (Val := Elt Ideal) (S := S1x256x1024) (e := .f32) (tileFn x0 x1) _ ?_ y (cover0_2 _ _ y)
  intro p hp x
  rcases List.mem_cons.mp hp with rfl | hp
  · obtain ⟨u, d, c, rfl⟩ : ∃ (u : Fin 1) (d : Fin 256) (c : Fin 512), x = ix3 u d c := ⟨x 0, x 1, x 2, eq_ix3 x⟩
    show k0_pay1 (k0_pay4 (View.ld x0 r0_0) (View.ld x1 r0_2)) (ix3 u d c) = tileFn x0 x1 (r0_2.emb (ix3 u d c))
    rw [pay1_apply, pay4_apply, View.ld_unit_zero (S := S2048x256) zero2]
    refine readLate_congr (fun mm k => rfl) (fun k => ?_) (Fin.ext ?_)
    · show x1 (r0_2.emb (ix3 (0 : Fin 1) k c)) = x1 _
      refine congrArg x1 (funext fun a => Fin.ext ?_)
      match a with
      | ⟨0, _⟩ => rfl
      | ⟨1, _⟩ => show 0 + 1 * k.val = k.val; omega
      | ⟨2, _⟩ => rfl
    · show d.val = 0 + 1 * d.val; omega
  · rcases List.mem_singleton.mp hp with rfl
    obtain ⟨u, d, c, rfl⟩ : ∃ (u : Fin 1) (d : Fin 256) (c : Fin 512), x = ix3 u d c := ⟨x 0, x 1, x 2, eq_ix3 x⟩
    show k0_pay3 (View.ld x0 r0_0) (View.ld x1 r0_1) (ix3 u d c) = tileFn x0 x1 (r0_1.emb (ix3 u d c))
    rw [pay3_eq, pay1_apply, pay4_apply, View.ld_unit_zero (S := S2048x256) zero2]
    refine readLate_congr (fun mm k => rfl) (fun k => ?_) (Fin.ext ?_)
    · show x1 (r0_1.emb (ix3 (0 : Fin 1) k c)) = x1 _
      refine congrArg x1 (funext fun a => Fin.ext ?_)
      match a with
      | ⟨0, _⟩ => rfl
      | ⟨1, _⟩ => show 0 + 1 * k.val = k.val; omega
      | ⟨2, _⟩ => rfl
    · show d.val = 0 + 1 * d.val; omega

/-! ## The arrays as the region finds them -/

variable (m : (ℓ : Loc nD τ sig) → Buf (Elt Ideal) ℓ) (ρ : Dev nD → PrngReg)

/-- The key bank the region reads: the argument with its float format changed, which is the argument. -/
abbrev keysArr (c : Dev nD) : Vec Ideal S2048x256 .bf16 := V m c main_v1
/-- The query the region reads: the argument with its two pixel axes flattened. -/
abbrev qArr (c : Dev nD) : Vec Ideal S8x256x4096 .f32 := V m c main_v0

theorem keysArr_eq (c : Dev nD) :
    keysArr m c = (m ((c : Thread nD τ).loc main_arg0) : S2048x256.Idx → EReal) := by
  show StableHlo.after hostOps0 (fun b => m (c, b)) (Proc.devRef .tc main_v1) = _
  after_results
  rfl

theorem qArr_eq (c : Dev nD) :
    qArr m c = shapeCast S8x256x4096 (m ((c : Thread nD τ).loc main_arg1) : S8x256x64x64.Idx → EReal) shapeCasts_S8x256x64x64_S8x256x4096 := by
  show StableHlo.after hostOps0 (fun b => m (c, b)) (Proc.devRef .tc main_v0) = _
  after_results
  rfl

/-! ## The index maps over the grid -/

/-- The keys' window never moves; the query's and the result's move together, over images on the first axis and
    over runs of 1024 pixels on the last, and stay put on the channel axis. -/
theorem idx_facts : ∀ t : Fin cfg0.N,
    win0_0.index t (0 : Fin 2) = 0 ∧ win0_0.index t (1 : Fin 2) = 0
    ∧ win0_1.index t (0 : Fin 3) = win0_2.index t (0 : Fin 3) ∧ win0_1.index t (1 : Fin 3) = 0
    ∧ win0_1.index t (2 : Fin 3) = win0_2.index t (2 : Fin 3)
    ∧ win0_2.index t (1 : Fin 3) = 0 ∧ win0_2.index t (0 : Fin 3) < 8 ∧ win0_2.index t (2 : Fin 3) < 4 :=
  (by decide +kernel : ∀ t : Fin grid0.N, _)

/-- Every (image, run of pixels) is some point's. -/
theorem idx_onto : ∀ (q0 : Fin 8) (q2 : Fin 4), ∃ t : Fin cfg0.N, win0_2.index t = ![q0.val, 0, q2.val] :=
  (by decide +kernel : ∀ (q0 : Fin 8) (q2 : Fin 4), ∃ t : Fin grid0.N, win0_2.index t = ![q0.val, 0, q2.val])

/-! ## What a point writes back -/

/-- Point `t` writes back its tile of `lateArr3` of the keys and the flattened query. -/
theorem flushed_eq (c : Dev nD) (t : Fin cfg0.N) :
    (dats m 0 c).flushed 2 t = ((cfg0.win 2).blk t).view.read (Elt Ideal) (lateArr3 (keysArr m c) (qArr m c)) := by
  show (cfg0.win 2).cut (grid0.coords t) ((dats m 0 c).after 2 t) = _
  rw [after0_2, out0_2_eq]
  obtain ⟨e00, e01, e10, e11, e12, e21, _, _⟩ := idx_facts t
  funext j
  have hj0 : (j 0).val < 1 := (j 0).isLt
  have hj1 : (j 1).val < 256 := (j 1).isLt
  have hj2 : (j 2).val < 1024 := (j 2).isLt
  show tileFn (iblk m c 0 t) (iblk m c 1 t) j = lateArr3 (keysArr m c) (qArr m c) (((cfg0.win 2).blk t).view.emb j)
  unfold tileFn lateArr3
  refine readLate_congr (fun mm k => ?_) (fun k => ?_) (Fin.ext ?_)
  · show V m c main_v1 (((cfg0.win 0).blk t).view.emb (ix2 mm k)) = V m c main_v1 (ix2 mm k)
    refine congrArg (V m c main_v1) (funext fun a => Fin.ext ?_)
    match a with
    | ⟨0, _⟩ => show win0_0.index t (0 : Fin 2) * 2048 + 1 * mm.val = mm.val; omega
    | ⟨1, _⟩ => show win0_0.index t (1 : Fin 2) * 256 + 1 * k.val = k.val; omega
  · show V m c main_v0 (((cfg0.win 1).blk t).view.emb (ix3 (0 : Fin 1) k ⟨(j 2).val, (j 2).isLt⟩)) = V m c main_v0 _
    refine congrArg (V m c main_v0) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 256 + 1 * k.val = k.val; omega
    | ⟨2, _⟩ => show win0_1.index t (2 : Fin 3) * 1024 + 1 * (j 2).val = win0_2.index t (2 : Fin 3) * 1024 + 1 * (j 2).val; omega
  · show (j 1).val = win0_2.index t (1 : Fin 3) * 256 + 1 * (j 1).val; omega

/-! ## The tiles cover the array -/

theorem mem_blk (t : Fin cfg0.N) (i : S8x256x4096.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v2).slice (win0_2.rect t)).set ↔ _
  rw [View.set_slice_whole, Rect.mem_set_unit]
  exact Iff.rfl

/-- Entry `(b, d, p)` is in the tile of the point at image `b` and run `p / 1024`. -/
theorem cover (i : S8x256x4096.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 4096 := (i 2).isLt
  obtain ⟨t, ht⟩ := idx_onto ⟨(i 0).val, hi0⟩ ⟨(i 2).val / 1024, by omega⟩
  have q0 : win0_2.index t (0 : Fin 3) = (i 0).val := congrFun ht 0
  have q1 : win0_2.index t (1 : Fin 3) = 0 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- The result array after the region. -/
theorem final (c : Dev nD) : (dats m 0 c).arrAt 2 cfg0.N = lateArr3 (keysArr m c) (qArr m c) :=
  (dats m 0 c).arrAt_eq_of_cover 2 _ (fun t _ => flushed_eq m c t) cover

/-! ## After the region -/

/-- Flattening the query's pixel axes and splitting the result's pixel axis are inverse re-indexings: pixel (h, w) is
    pixel number h·64 + w on both sides. -/
theorem split_lateArr3 (K : S2048x256.Idx → EReal) (Q : S8x256x64x64.Idx → EReal) :
    shapeCast S8x256x64x64 (lateArr3 K (shapeCast S8x256x4096 Q shapeCasts_S8x256x64x64_S8x256x4096)) shapeCasts_S8x256x4096_S8x256x64x64
      = lateArr K Q := by
  funext i
  obtain ⟨b, d, h, w, rfl⟩ : ∃ (b : Fin 8) (d : Fin 256) (h w : Fin 64), i = ix4 b d h w := ⟨_, _, _, _, eq_ix4 i⟩
  have hb := b.isLt; have hd := d.isLt; have hh := h.isLt; have hw := w.isLt
  have hp : h.val * 64 + w.val < 4096 := by omega
  rw [shapeCast_apply _ shapeCasts_S8x256x4096_S8x256x64x64 (ix4 b d h w) (ix3 b d (⟨h.val * 64 + w.val, hp⟩ : Fin 4096))
    (by rw [Shape.rowMajor_val_three, Shape.rowMajor_val_four]
        show (b.val * 256 + d.val) * 4096 + (h.val * 64 + w.val) = ((b.val * 256 + d.val) * 64 + h.val) * 64 + w.val
        omega)]
  rw [lateArr3_ix3, lateArr_ix4]
  refine readLate_congr (fun mm k => rfl) (fun k => ?_) rfl
  have hk := k.isLt
  exact shapeCast_apply Q shapeCasts_S8x256x64x64_S8x256x4096 _ (ix4 b k h w)
    (by rw [Shape.rowMajor_val_four, Shape.rowMajor_val_three]
        show ((b.val * 256 + k.val) * 64 + h.val) * 64 + w.val = (b.val * 256 + k.val) * 4096 + (h.val * 64 + w.val)
        omega)

/-- The program's result buffer after the line that follows the region. -/
theorem tail_eq (c : Dev nD) :
    Pipeline.afterTail₀ cfgs (dats m) 0 (V0 m) [hostOps1] c main_v3
      = lateArr (m ((c : Thread nD τ).loc main_arg0) : S2048x256.Idx → EReal) (m ((c : Thread nD τ).loc main_arg1) : S8x256x64x64.Idx → EReal) := by
  unfold Pipeline.afterTail₀
  show StableHlo.after hostOps1 _ (Proc.devRef .tc main_v3) = _
  after_results
  have harr : Pipeline.withArrays (cfgs 0).spec c (V0 m c) (fun w => (dats m 0 c).arrAt w (cfgs 0).N) (Proc.devRef .tc main_v2)
      = lateArr3 (keysArr m c) (qArr m c) :=
    (Pipeline.withArrays_arr spec0 winFacts0.arr_inj c _ _ 2).trans (final m c)
  refine Eq.trans (b := shapeCast S8x256x64x64 (Pipeline.withArrays (cfgs 0).spec c (V0 m c)
      (fun w => (dats m 0 c).arrAt w (cfgs 0).N) (Proc.devRef .tc main_v2)) shapeCasts_S8x256x4096_S8x256x64x64) rfl ?_
  rw [harr, keysArr_eq, qArr_eq]
  exact split_lateArr3 _ _

/-! ## The run, read -/

/-- Every weakly fair execution of the kernel program ends with its result at `lateArr` of the keys and the query
    as launched, and the three arguments as launched. -/
theorem run : θ_run defs (onTc (τ := τ) (main (F := Ideal))) ⟨m, fun _ => 0, ρ⟩ fun r => ∀ c : Dev nD,
      r.2.mem ((c : Thread nD τ).loc main_v3)
        = lateArr (m ((c : Thread nD τ).loc main_arg0) : S2048x256.Idx → EReal) (m ((c : Thread nD τ).loc main_arg1) : S8x256x64x64.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelArray

end
-- ==== Proof.lean ====
/-
  A memory read by attention, and its two arrangements.
  Inputs: a bank of 2048 keys of width 256, a query of 8 images with 256 channels on 64 × 64 pixels, and a third
  array neither program reads. For every image `b` and pixel `(h, w)` the query's 256 channels are one column
  `q`; row `mm` of the bank scores `∑ d, K mm d · q d`; the rows are weighted by `exp (score − highest score)`;
  and coordinate `d` of the result at that pixel is the weighted mean of the keys' column `d`.
  The kernel program keeps the pixels on the last axis, sums the unnormalised weights against the keys and divides
  the sum by the weights' total once (`Attention.lateArr`: KernelRead.lean reads one grid step's arithmetic entry by
  entry, KernelArray.lean carries it from the tiles to the whole array and through the reshapes around the region).
  The reference program moves the channels last, divides every weight by the total and then sums
  (`Attention.earlyArr`: ReferenceRead.lean, over the reference's run read one operation at a time).
  The two are one array when the keys and the query are finite: then every score, the highest score and every
  weight are reals, the total is a positive real, and division by it distributes over the finite sum
  (AttentionLaw.lean). Finiteness is what the precondition says of the inputs (FiniteInputs.lean). At an infinite
  input the distribution step fails, which is why the precondition is used and not merely carried.
  Each program's run terminates without a fault and leaves its arguments as launched: for the two kernel programs
  by their launch-and-body frame run, for the reference by its run with the result dropped. The idealization
  rewrote no operation of the kernel, so that conjunct is trivial.
-/
import proofs.«426040_j38079180046960_3_alg».proof.Defs
import proofs.«426040_j38079180046960_3_alg».proof.Proof.Gen.Kernel
import proofs.«426040_j38079180046960_3_alg».proof.Proof.Gen.Kernel.Skeleton
import proofs.«426040_j38079180046960_3_alg».proof.Proof.Gen.Kernel.Launch
import proofs.«426040_j38079180046960_3_alg».proof.Proof.Gen.Kernel.Points
import proofs.«426040_j38079180046960_3_alg».proof.Proof.Gen.Kernel.Frame
import proofs.«426040_j38079180046960_3_alg».proof.Proof.Gen.KernelIdeal
import proofs.«426040_j38079180046960_3_alg».proof.Proof.Gen.KernelIdeal.Skeleton
import proofs.«426040_j38079180046960_3_alg».proof.Proof.Gen.KernelIdeal.Launch
import proofs.«426040_j38079180046960_3_alg».proof.Proof.Gen.KernelIdeal.Points
import proofs.«426040_j38079180046960_3_alg».proof.Proof.Gen.KernelIdeal.Frame
import proofs.«426040_j38079180046960_3_alg».proof.Proof.Gen.ReferenceIdeal
import proofs.«426040_j38079180046960_3_alg».proof.Proof.Gen.ReferenceIdeal.Run
import proofs.«426040_j38079180046960_3_alg».proof.Proof.Gen.ReferenceIdeal.Read
import proofs.«426040_j38079180046960_3_alg».proof.Proof.Gen.Pre_finite_inputs
import proofs.«426040_j38079180046960_3_alg».proof.Proof.Attention
import proofs.«426040_j38079180046960_3_alg».proof.Proof.AttentionLaw
import proofs.«426040_j38079180046960_3_alg».proof.Proof.FiniteInputs
import proofs.«426040_j38079180046960_3_alg».proof.Proof.ReferenceRead
import proofs.«426040_j38079180046960_3_alg».proof.Proof.KernelRead
import proofs.«426040_j38079180046960_3_alg».proof.Proof.KernelArray
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, the kernel program ends at the read that divides last and the
    reference at the read that divides first, of the same finite keys and query: one array. -/
theorem algebraic : Cert.algebraic_KernelIdeal_ReferenceIdeal := by
  intro m ρ m' ρ' hpre hagree
  refine ⟨fun c => Cert.Attention.lateArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceRead.reference_eq_earlyArr, (hagree c).1, (hagree c).2.1]
  obtain ⟨hK, hQ⟩ := Cert.FiniteInputs.real_of_pre _ _ _ (hpre c)
  exact (Cert.Attention.lateArr_eq_earlyArr _ _ hK hQ).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
